-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x1600000 32) (main_arg2 : FVec F S1600000 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S5000x128 : Shape := ⟨2, ![5000, 128]⟩

abbrev nBuf : Space → Nat
  | .hbm => 58
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S128x128, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v39) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩

abbrev nBuf : Space → Nat
  | .hbm => 61
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S128x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_cst : Ref sig .tc := ⟨.hbm, 58, rfl⟩
abbrev main_call1_v0 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LinearRelu.lean ====
import Idealize.ShloMosaic.PureOps.Ideal
import Idealize.ShloMosaic.Lib.ValueIdx

noncomputable section

open scoped BigOperators

/-! # The dense layer: a product with a shared matrix, then the positive part

Both programs first build the same aggregated feature table `A` (100000 rows of 128 features: the
degree-normalised sum over each node's edges) and the transposed weight matrix `B` (128 by 128), and then
compute, for row `r` and output feature `q`,

  `max (∑ k, A (r, k) · B (k, q)) 0`

on the extended reals. The kernel does this 5000 rows at a time; the reference does it for the whole table
at once. The sum for row `r` reads only row `r` of `A`, so the rows may be grouped in any way. -/

namespace Cert.LinearRelu

open Idealize.ShloMosaic Idealize.ShloMosaic.ValueIdx

/-- The layer's result at an entry: the positive part of row `i 0` of `A` against column `i 1` of `B`. -/
def linRelu (A : (⟨2, ![100000, 128]⟩ : Shape).Idx → EReal) (B : (⟨2, ![128, 128]⟩ : Shape).Idx → EReal) :
    (⟨2, ![100000, 128]⟩ : Shape).Idx → EReal :=
  fun i => FloatOps.maximumf (F := Ideal) (φ := .f32) (∑ k : Fin 128, A (ix2 (i 0) k) * B (ix2 k (i 1)))
    (FloatOps.ofBits .f32 0x00000000#32)

end Cert.LinearRelu

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.KernelValue.lean ====
import proofs.«123442_j47510928228756_1_alg».proof.Proof.Gen.KernelIdeal.Value
import proofs.«123442_j47510928228756_1_alg».proof.Proof.LibPlainDot
import proofs.«123442_j47510928228756_1_alg».proof.Proof.LinearRelu
import Idealize.ShloMosaic.Lib.Pipeline.Value
import Idealize.ShloMosaic.Lib.ValueIdx

noncomputable section

open scoped BigOperators

/-! # What the kernel leaves in its result array

Grid point `t` of 20 reads rows `5000·t … 5000·t + 4999` of the aggregated table `A` and the whole matrix `B`,
and writes the same rows of the result. Entry `(r, q)` of what it writes is the positive part of
`∑ k, A (5000·t + r, k) · B (k, q)`: rounding the operands to a narrower format changes nothing on the extended
reals, and a matrix-unit product into a zero accumulator is that sum. Row `ρ` of the result is written by point
`ρ / 5000` and by no other, and the twenty blocks cover all 100000 rows, so after the run the result array is the
layer `linRelu A B`. -/

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.LinearRelu

variable (m : (ℓ : Loc nD τ sig) → Buf (Elt Ideal) ℓ) (ρ : Dev nD → PrngReg)

theorem hz : (![0, 0] : Fin 2 → Nat) = fun _ => 0 := funext fun a => by fin_cases a <;> rfl

/-- One block's result at an entry: the positive part of a row of the left block against a column of the matrix. -/
theorem pay_apply (x0 : Vec Ideal S5000x128 .f32) (x1 : Vec Ideal S128x128 .f32) (j : S5000x128.Idx) :
    k0_pay1 (F := Ideal) x0 x1 j
      = FloatOps.maximumf (F := Ideal) (φ := .f32) (∑ k : Fin 128, x0 (ix2 (j 0) k) * x1 (ix2 k (j 1)))
          (FloatOps.ofBits .f32 0x00000000#32) := by
  unfold k0_pay1
  show FloatOps.maximumf (F := Ideal) (φ := .f32) (matmul (F := Ideal) dot_S5000x128_S128x128_S5000x128_1_0_0_1_n_n none
      (truncf (F := Ideal) .bf16 (shapeCast S5000x128 x0 shapeCasts_S5000x128_S5000x128) bitsLt_bf16_f32)
      (truncf (F := Ideal) .bf16 (shapeCast S128x128 x1 shapeCasts_S128x128_S128x128) bitsLt_bf16_f32)
      (constant (F := Ideal) S5000x128 .f32 0x00000000#32) j) _ = _
  rw [shapeCast_self, shapeCast_self]
  refine congrArg (fun z => FloatOps.maximumf (F := Ideal) (φ := .f32) z _) ?_
  exact Cert.PlainDot.matmul_zero_apply _ rfl none _ _ j

/-- Where each window's block sits at point `t`: the table's and the result's blocks at row block `t`, column
    block 0; the matrix always at its one block. Decided over the twenty points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the block of rows that point `t` reads from a table is the table at row `5000·t + y 0`. -/
theorem blk0_read (c : Dev nD) (t : Fin cfg0.N) (A : Buf (Elt Ideal) ((c : Thread nD τ).loc main_v39))
    (y : S5000x128.Idx) (i : S100000x128.Idx)
    (h0 : (i 0).val = t.val * 5000 + (y 0).val) (h1 : (i 1).val = (y 1).val) :
    (((cfg0.win 0).blk t).view.read (Elt Ideal) A : Vec Ideal S5000x128 .f32) y = (A : S100000x128.Idx → EReal) i := by
  obtain ⟨e0, e1, -, -, -, -⟩ := idx_facts t
  rw [View.read_apply]
  refine congrArg (A : S100000x128.Idx → EReal) ?_
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The block that any point reads from the matrix is the whole matrix. -/
theorem blk1_read (c : Dev nD) (t : Fin cfg0.N) (B : Buf (Elt Ideal) ((c : Thread nD τ).loc main_v40)) (y : S128x128.Idx) :
    (((cfg0.win 1).blk t).view.read (Elt Ideal) B : Vec Ideal S128x128 .f32) y = (B : S128x128.Idx → EReal) y := by
  obtain ⟨-, -, e2, e3, -, -⟩ := idx_facts t
  rw [View.read_apply]
  refine congrArg (B : S128x128.Idx → EReal) ?_
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The body's result on the blocks that point `t` reads from a table `A` and a matrix `B`, at entry `j`, is
    the layer of `A` and `B` at the place of the result where point `t` writes entry `j`. -/
theorem body_block (c : Dev nD) (t : Fin cfg0.N) (A : Buf (Elt Ideal) ((c : Thread nD τ).loc main_v39))
    (B : Buf (Elt Ideal) ((c : Thread nD τ).loc main_v40)) (j : S5000x128.Idx) :
    k0_pay1 (F := Ideal) (((cfg0.win 0).blk t).view.read (Elt Ideal) A) (((cfg0.win 1).blk t).view.read (Elt Ideal) B) j
      = linRelu A B (((cfg0.win 2).blk t).view.emb j) := by
  obtain ⟨-, -, -, -, e4, e5⟩ := idx_facts t
  refine (pay_apply _ _ j).trans ?_
  unfold linRelu
  refine congrArg (fun z => FloatOps.maximumf (F := Ideal) (φ := .f32) z _) ?_
  refine Finset.sum_congr rfl fun k _ => ?_
  have hr : ((((cfg0.win 2).blk t).view.emb j) 0).val = t.val * 5000 + (j 0).val := by
    show win0_2.index t 0 * 5000 + 1 * (j 0).val = _; rw [e4]; omega
  have hq : ((((cfg0.win 2).blk t).view.emb j) 1).val = (j 1).val := by
    show win0_2.index t 1 * 128 + 1 * (j 1).val = _; rw [e5]; omega
  have hcol : (ix2 k (j 1) : S128x128.Idx) = ix2 k ((((cfg0.win 2).blk t).view.emb j) 1) := by
    funext a
    match a with
    | ⟨0, _⟩ => rfl
    | ⟨1, _⟩ => exact Fin.ext hq.symm
  rw [blk0_read c t A (ix2 (j 0) k) (ix2 ((((cfg0.win 2).blk t).view.emb j) 0) k) hr rfl, blk1_read c t B (ix2 k (j 1)), hcol]
  rfl

/-- The aggregated table as the region finds it: the array its first window reads. -/
def tbl (c : Dev nD) : Buf (Elt Ideal) ((c : Thread nD τ).loc main_v39) := V m c (Pipeline.arrRef spec0 0)

/-- The transposed matrix as the region finds it: the array its second window reads. -/
def mat (c : Dev nD) : Buf (Elt Ideal) ((c : Thread nD τ).loc main_v40) := V m c (Pipeline.arrRef spec0 1)

theorem iblk0_eq (c : Dev nD) (t : Fin cfg0.N) :
    iblk m c 0 t = ((cfg0.win 0).blk t).view.read (Elt Ideal) (tbl m c) := rfl

theorem iblk1_eq (c : Dev nD) (t : Fin cfg0.N) :
    iblk m c 1 t = ((cfg0.win 1).blk t).view.read (Elt Ideal) (mat m c) := rfl

/-- A block of 5000 rows that agrees entry by entry with an array `G` at the places where point `t` writes it is
    what point `t` writes back of `G`. -/
theorem cut_eq_read_of (t : Fin cfg0.N) (X : Vec Ideal S5000x128 .f32) (G : S100000x128.Idx → EReal)
    (h : ∀ j : S5000x128.Idx, X j = G (((cfg0.win 2).blk t).view.emb j)) :
    (cfg0.win 2).cut (grid0.coords t) X = ((cfg0.win 2).blk t).view.read (Elt Ideal) G := by
  funext j
  exact h j

/-- What point `t` writes back is block `t` of the layer of the table and the matrix as the region finds them. -/
theorem flushed_eq (c : Dev nD) (t : Fin cfg0.N) :
    (dats m 0 c).flushed 2 t
      = ((cfg0.win 2).blk t).view.read (Elt Ideal) (linRelu (tbl m c) (mat m c)) := by
  rw [Value.flushed2]
  unfold out0_2
  rw [View.canon_unit_zero hz]
  simp only [View.ld_unit_zero (S := S5000x128) hz, View.ld_unit_zero (S := S128x128) hz]
  rw [iblk0_eq, iblk1_eq]
  exact cut_eq_read_of t (k0_pay1 (F := Ideal) (((cfg0.win 0).blk t).view.read (Elt Ideal) (tbl m c)) (((cfg0.win 1).blk t).view.read (Elt Ideal) (mat m c)))
    (linRelu (tbl m c) (mat m c)) (fun j => body_block c t (tbl m c) (mat m c) j)

/-- An index of the result is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v41).slice (win0_2.rect t)).set ↔ _
  rw [View.set_slice_whole, Rect.mem_set_unit]
  exact Iff.rfl

/-- Row `ρ` of the result lies in the block of point `ρ / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e4, e5⟩ := idx_facts t
  refine ⟨t, flush0_2 t, ?_⟩
  rw [mem_blk]
  intro a
  have ht : t.val = (i 0).val / 5000 := rfl
  match a with
  | ⟨0, _⟩ =>
    show win0_2.index t 0 * 5000 ≤ (i 0).val ∧ (i 0).val < win0_2.index t 0 * 5000 + 5000
    rw [e4, ht]; omega
  | ⟨1, _⟩ =>
    show win0_2.index t 1 * 128 ≤ (i 1).val ∧ (i 1).val < win0_2.index t 1 * 128 + 128
    rw [e5]; omega

/-- After the run the result array is the layer of the table and the matrix as the region finds them. -/
theorem final (c : Dev nD) : (dats m 0 c).arrAt 2 cfg0.N = linRelu (tbl m c) (mat m c) :=
  (dats m 0 c).arrAt_eq_of_cover 2 (linRelu (tbl m c) (mat m c)) (fun t _ => flushed_eq m c t) cover

/-- The run, read: the result array at the layer, the arguments unchanged. -/
theorem run : θ_run defs (onTc (τ := τ) (main (F := Ideal))) ⟨m, fun _ => 0, ρ⟩ fun r => ∀ c : Dev nD,
      r.2.mem ((c : Thread nD τ).loc main_v41) = linRelu (tbl m c) (mat m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelIdeal.Hand

end
-- ==== Proof.HostPrefix.lean ====
import proofs.«123442_j47510928228756_1_alg».proof.Proof.Gen.KernelIdeal.Frame
import proofs.«123442_j47510928228756_1_alg».proof.Proof.Gen.ReferenceIdeal.Read
import Idealize.ShloMosaic.Lib.StableHlo.Run

noncomputable section

/-! # The table and the matrix the kernel's region finds

Before its one region the kernel's program runs, operation for operation, the reference's own first steps: the
edge list split into rows and columns, the row sums of the edge values clipped from below, their inverse square
roots gathered at both ends of every edge, the scaled feature rows scattered onto their target nodes, and the
weight matrix transposed. So the two arrays the region reads are the reference's aggregated table and its
transposed matrix, as functions of the same four arguments. The operations are the same whatever the floats
are, so this is stated for any float family, and nothing of the arithmetic is opened. -/

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (m : (ℓ : Loc nD τ sig) → Buf (Elt F) ℓ)

/-- The array the region's second window reads is the reference's transposed weight matrix. -/
theorem V_matrix (c : Dev nD) :
    (V m c (Pipeline.arrRef spec0 1) : S128x128.Idx → Elt F .f32)
      = Cert.ReferenceIdeal.Read.val_main_v40 (F := F) (m ((c : Thread nD τ).loc main_arg3)) := by
  dsimp only [V]
  show StableHlo.after _ _ (Proc.devRef .tc main_v40) = _
  simp only [hostOps0, hostOps0_1, hostOps0_2, List.flatten_cons, List.flatten_nil, List.append_nil, List.cons_append,
    List.nil_append]
  after_results_simp
  rfl

set_option maxRecDepth 8192 in
set_option maxHeartbeats 2000000 in
/-- The array the region's first window reads is the reference's aggregated table. -/
theorem V_table (c : Dev nD) :
    (V m c (Pipeline.arrRef spec0 0) : S100000x128.Idx → Elt F .f32)
      = Cert.ReferenceIdeal.Read.val_main_v39 (F := F) (m ((c : Thread nD τ).loc main_arg0))
          (m ((c : Thread nD τ).loc main_arg1)) (m ((c : Thread nD τ).loc main_arg2)) := by
  dsimp only [V]
  show StableHlo.after _ _ (Proc.devRef .tc main_v39) = _
  simp only [hostOps0, hostOps0_1, hostOps0_2, List.flatten_cons, List.flatten_nil, List.append_nil, List.cons_append,
    List.nil_append]
  after_results_simp
  rfl

end Cert.KernelIdeal.Hand

end
-- ==== Proof.RefValue.lean ====
import proofs.«123442_j47510928228756_1_alg».proof.Proof.Gen.ReferenceIdeal.Read
import proofs.«123442_j47510928228756_1_alg».proof.Proof.LinearRelu
import Idealize.ShloMosaic.Lib.ValueIdx

noncomputable section

open scoped BigOperators

/-! # The reference's last three operations are the layer

After the aggregated table `A` and the transposed matrix `B` the reference takes their product over the whole
table at once and then the maximum with a zero array. On the extended reals the product's entry `(r, q)` is
`∑ k, A (r, k) · B (k, q)`, and the zero array's entry is the zero word, so the result is `linRelu A B`. -/

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.LinearRelu

/-- The reference's result, as a function of its four arguments, is the layer of its own table and matrix. -/
theorem result_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal)) :
    val_main_v42 (F := Ideal) x0 x1 x2 x3 = linRelu (val_main_v39 (F := Ideal) x0 x1 x2) (val_main_v40 (F := Ideal) x3) := by
  funext i
  have el : ∀ k : Fin 128, lidx_main_v41 i k = ix2 (i 0) k := fun k => funext fun a => by
    match a with
    | ⟨0, _⟩ => rfl
    | ⟨1, _⟩ => rfl
  have er : ∀ k : Fin 128, ridx_main_v41 i k = ix2 k (i 1) := fun k => funext fun a => by
    match a with
    | ⟨0, _⟩ => rfl
    | ⟨1, _⟩ => rfl
  rw [val_main_v42_apply, val_main_v41_apply, val_main_call1_v0_apply, val_main_call1_cst_apply]
  unfold linRelu
  simp only [el, er]
  rfl

end Cert.ReferenceIdeal.RefValue

end
-- ==== Proof.lean ====
/- The certificate of a graph-convolution layer.

   Both programs first aggregate node features over the edges of a graph: with `deg r` the sum of the edge values
   leaving node `r`, clipped from below by a small positive constant, each edge `(r, s)` of value `v` carries
   `v / (sqrt (deg r) · sqrt (deg s))` times the feature row of `s` onto node `r`; the sums are the table `A`
   (100000 rows of 128 features). Both then multiply `A` by the transposed weight matrix and keep the positive part.
   The aggregation is the same sequence of operations in both programs; the kernel differs only in the last step, which
   it computes 5000 rows at a time on blocks of `A`, after rounding both operands to a narrower format.

   On the extended reals the rounding is the identity and entry `(r, q)` of either product is
   `∑ k, A (r, k) · W (q, k)`, a sum that reads only row `r` of `A`; so the twenty row blocks of the kernel's result
   are the row blocks of the reference's (`Cert.LinearRelu.linRelu`). No algebraic law on the extended reals is used
   beyond that, so the finiteness of the inputs is not needed.

   The three frames are the generated ones (the reference's is its generated run with the result dropped); the
   idealization rewrote no operation, so `preserves` is trivial. -/
import proofs.«123442_j47510928228756_1_alg».proof.Defs
import proofs.«123442_j47510928228756_1_alg».proof.Proof.Gen.Kernel
import proofs.«123442_j47510928228756_1_alg».proof.Proof.Gen.Kernel.Skeleton
import proofs.«123442_j47510928228756_1_alg».proof.Proof.Gen.Kernel.Launch
import proofs.«123442_j47510928228756_1_alg».proof.Proof.Gen.Kernel.Points
import proofs.«123442_j47510928228756_1_alg».proof.Proof.Gen.Kernel.Frame
import proofs.«123442_j47510928228756_1_alg».proof.Proof.Gen.KernelIdeal
import proofs.«123442_j47510928228756_1_alg».proof.Proof.Gen.KernelIdeal.Skeleton
import proofs.«123442_j47510928228756_1_alg».proof.Proof.Gen.KernelIdeal.Launch
import proofs.«123442_j47510928228756_1_alg».proof.Proof.Gen.KernelIdeal.Points
import proofs.«123442_j47510928228756_1_alg».proof.Proof.Gen.KernelIdeal.Frame
import proofs.«123442_j47510928228756_1_alg».proof.Proof.Gen.ReferenceIdeal
import proofs.«123442_j47510928228756_1_alg».proof.Proof.Gen.Pre_finite_inputs
import proofs.«123442_j47510928228756_1_alg».proof.Proof.Gen.KernelIdeal.Value
import proofs.«123442_j47510928228756_1_alg».proof.Proof.Gen.ReferenceIdeal.Run
import proofs.«123442_j47510928228756_1_alg».proof.Proof.Gen.ReferenceIdeal.Read
import proofs.«123442_j47510928228756_1_alg».proof.Proof.LinearRelu
import proofs.«123442_j47510928228756_1_alg».proof.Proof.KernelValue
import proofs.«123442_j47510928228756_1_alg».proof.Proof.HostPrefix
import proofs.«123442_j47510928228756_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The table the kernel's region reads is the reference's aggregated table of the same arguments. -/
theorem tbl_eq (m : (ℓ : Loc Cert.KernelIdeal.nD Cert.KernelIdeal.τ Cert.KernelIdeal.sig) → Buf (Elt Ideal) ℓ) (c : Dev Cert.KernelIdeal.nD) :
    Cert.KernelIdeal.Hand.tbl m c
      = Cert.ReferenceIdeal.Read.val_main_v39 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  unfold Cert.KernelIdeal.Hand.tbl
  exact Cert.KernelIdeal.Hand.V_table (F := Ideal) m c

/-- The matrix the kernel's region reads is the reference's transposed weight matrix of the same argument. -/
theorem mat_eq (m : (ℓ : Loc Cert.KernelIdeal.nD Cert.KernelIdeal.τ Cert.KernelIdeal.sig) → Buf (Elt Ideal) ℓ) (c : Dev Cert.KernelIdeal.nD) :
    Cert.KernelIdeal.Hand.mat m c
      = Cert.ReferenceIdeal.Read.val_main_v40 (F := Ideal) (m ((c.tc : Thread Cert.KernelIdeal.nD Cert.KernelIdeal.τ).loc Cert.KernelIdeal.main_arg3)) := by
  unfold Cert.KernelIdeal.Hand.mat
  exact Cert.KernelIdeal.Hand.V_matrix (F := Ideal) m c

/-- The kernel's result array ends at the layer of the table and the matrix its region finds, the reference's at
    the layer of its own table and matrix; from arguments that agree the two tables and the two matrices are the
    same arrays. -/
theorem algebraic : Cert.algebraic_KernelIdeal_ReferenceIdeal := by
  intro m ρ m' ρ' _ hagree
  refine ⟨fun c => Cert.LinearRelu.linRelu (Cert.KernelIdeal.Hand.tbl m c) (Cert.KernelIdeal.Hand.mat m c),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  beta_reduce
  rw [Cert.ReferenceIdeal.Read.val_main_v42_eq, Cert.ReferenceIdeal.RefValue.result_eq,
    (hagree c).1, (hagree c).2.1, (hagree c).2.2.1, (hagree c).2.2.2,
    tbl_eq m c, mat_eq m c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
